-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x5x5x256x256 : Shape := ⟨5, ![2, 5, 5, 256, 256]⟩
abbrev S2x32x256x256 : Shape := ⟨4, ![2, 32, 256, 256]⟩
abbrev S_ : Shape := ⟨0, ![]⟩

class Facts : Prop where
  bcast_S_S2x5x5x256x256 : S_.BroadcastsInDim S2x5x5x256x256 (![] : Fin 0 → Fin S2x5x5x256x256.rank)
  reducesTo_S2x5x5x256x256_S_d0_1_2_3_4 : S2x5x5x256x256.ReducesTo [0, 1, 2, 3, 4] S_
  h_S_ : 0 < S_.numel
  bcast_S_S2x32x256x256 : S_.BroadcastsInDim S2x32x256x256 (![] : Fin 0 → Fin S2x32x256x256.rank)
  reducesTo_S2x32x256x256_S_d0_1_2_3 : S2x32x256x256.ReducesTo [0, 1, 2, 3] S_

variable [Facts]

def fn {F : FTy → Type} [FloatOps F] (main_arg0 : FVec F S2x5x5x256x256 .f32) (main_arg1 : FVec F S2x32x256x256 .f32) : IVec S_ 1 :=
  let main_v0 : FVec F S2x5x5x256x256 .f32 := Host.absf main_arg0
  let main_cst : FVec F S_ .f32 := constant S_ .f32 0x7F800000#32
  let main_v1 : FVec F S2x5x5x256x256 .f32 := broadcastInDim S2x5x5x256x256 ![] bcast_S_S2x5x5x256x256 main_cst
  let main_v2 : IVec S2x5x5x256x256 1 := cmpf .olt main_v0 main_v1
  let main_c : IVec S_ 1 := constantI S_ 1 1#1
  let main_v3 : IVec S_ 1 := (fun x v => Host.reduce IntOp.andi x v reducesTo_S2x5x5x256x256_S_d0_1_2_3_4 h_S_) main_v2 main_c
  let main_v4 : FVec F S2x32x256x256 .f32 := Host.absf main_arg1
  let main_cst_0 : FVec F S_ .f32 := constant S_ .f32 0x7F800000#32
  let main_v5 : FVec F S2x32x256x256 .f32 := broadcastInDim S2x32x256x256 ![] bcast_S_S2x32x256x256 main_cst_0
  let main_v6 : IVec S2x32x256x256 1 := cmpf .olt main_v4 main_v5
  let main_c_1 : IVec S_ 1 := constantI S_ 1 1#1
  let main_v7 : IVec S_ 1 := (fun x v => Host.reduce IntOp.andi x v reducesTo_S2x32x256x256_S_d0_1_2_3 h_S_) main_v6 main_c_1
  let main_v8 : IVec S_ 1 := andi main_v3 main_v7
  main_v8
-- ==== Kernel.lean ====
abbrev S2x5x5x256x256 : Shape := ⟨5, ![2, 5, 5, 256, 256]⟩
abbrev S2x32x256x256 : Shape := ⟨4, ![2, 32, 256, 256]⟩
abbrev S2x25x256x256 : Shape := ⟨4, ![2, 25, 256, 256]⟩
abbrev S1x8x256x256 : Shape := ⟨4, ![1, 8, 256, 256]⟩
abbrev S1x25x256x256 : Shape := ⟨4, ![1, 25, 256, 256]⟩
abbrev S8x256x256 : Shape := ⟨3, ![8, 256, 256]⟩
abbrev S25x256x256 : Shape := ⟨3, ![25, 256, 256]⟩
abbrev S8x2x256 : Shape := ⟨3, ![8, 2, 256]⟩
abbrev S8x258x256 : Shape := ⟨3, ![8, 258, 256]⟩
abbrev S8x260x256 : Shape := ⟨3, ![8, 260, 256]⟩
abbrev S8x260x2 : Shape := ⟨3, ![8, 260, 2]⟩
abbrev S8x260x258 : Shape := ⟨3, ![8, 260, 258]⟩
abbrev S8x260x260 : Shape := ⟨3, ![8, 260, 260]⟩
abbrev S1x256x256 : Shape := ⟨3, ![1, 256, 256]⟩
abbrev S256x256 : Shape := ⟨2, ![256, 256]⟩

abbrev nBuf : Space → Nat
  | .hbm => 4
  | .vmem => 6
  | .smem => 0
  | _ => 0

abbrev bufTy : (tb : Table) → Fin (tcTables nBuf tb) → BufTy
  | .hbm, ⟨0, _⟩ => ⟨S2x5x5x256x256, .f32⟩
  | .hbm, ⟨1, _⟩ => ⟨S2x32x256x256, .f32⟩
  | .hbm, ⟨2, _⟩ => ⟨S2x25x256x256, .f32⟩
  | .hbm, ⟨3, _⟩ => ⟨S2x32x256x256, .f32⟩
  | .local _ .vmem, ⟨0, _⟩ => ⟨S1x8x256x256, .f32⟩
  | .local _ .vmem, ⟨1, _⟩ => ⟨S1x8x256x256, .f32⟩
  | .local _ .vmem, ⟨2, _⟩ => ⟨S1x25x256x256, .f32⟩
  | .local _ .vmem, ⟨3, _⟩ => ⟨S1x25x256x256, .f32⟩
  | .local _ .vmem, ⟨4, _⟩ => ⟨S1x8x256x256, .f32⟩
  | .local _ .vmem, ⟨5, _⟩ => ⟨S1x8x256x256, .f32⟩
  | _, _ => ⟨S2x5x5x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x25x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x5x5x256x256_S2x25x256x256 : S2x5x5x256x256.ShapeCasts S2x25x256x256
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  inb_S1x25x256x256_S1x25x256x256_0_0_0_0 : ∀ a, (![0, 0, 0, 0] : Fin 4 → Nat) a + S1x25x256x256.size a ≤ S1x25x256x256.size a
  h_S1x25x256x256 : 0 < S1x25x256x256.numel
  shapeCasts_S1x25x256x256_S25x256x256 : S1x25x256x256.ShapeCasts S25x256x256
  concatenates_S8x2x256_S8x256x256_S8x258x256_d1 : Shape.Concatenates [S8x2x256, S8x256x256] S8x258x256 1
  concatenates_S8x258x256_S8x2x256_S8x260x256_d1 : Shape.Concatenates [S8x258x256, S8x2x256] S8x260x256 1
  concatenates_S8x260x2_S8x260x256_S8x260x258_d2 : Shape.Concatenates [S8x260x2, S8x260x256] S8x260x258 2
  concatenates_S8x260x258_S8x260x2_S8x260x260_d2 : Shape.Concatenates [S8x260x258, S8x260x2] S8x260x260 2
  slices_S8x260x260_o0_0_0_S8x256x256 : S8x260x260.Slices ![0, 0, 0] S8x256x256
  slices_S25x256x256_o0_0_0_S1x256x256 : S25x256x256.Slices ![0, 0, 0] S1x256x256
  shapeCasts_S1x256x256_S256x256 : S1x256x256.ShapeCasts S256x256
  shapeCasts_S256x256_S1x256x256 : S256x256.ShapeCasts S1x256x256
  broadcasts_S1x256x256_S8x256x256 : S1x256x256.Broadcasts S8x256x256
  slices_S8x260x260_o0_0_1_S8x256x256 : S8x260x260.Slices ![0, 0, 1] S8x256x256
  slices_S25x256x256_o1_0_0_S1x256x256 : S25x256x256.Slices ![1, 0, 0] S1x256x256
  slices_S8x260x260_o0_0_2_S8x256x256 : S8x260x260.Slices ![0, 0, 2] S8x256x256
  slices_S25x256x256_o2_0_0_S1x256x256 : S25x256x256.Slices ![2, 0, 0] S1x256x256
  slices_S8x260x260_o0_0_3_S8x256x256 : S8x260x260.Slices ![0, 0, 3] S8x256x256
  slices_S25x256x256_o3_0_0_S1x256x256 : S25x256x256.Slices ![3, 0, 0] S1x256x256
  slices_S8x260x260_o0_0_4_S8x256x256 : S8x260x260.Slices ![0, 0, 4] S8x256x256
  slices_S25x256x256_o4_0_0_S1x256x256 : S25x256x256.Slices ![4, 0, 0] S1x256x256
  slices_S8x260x260_o0_1_0_S8x256x256 : S8x260x260.Slices ![0, 1, 0] S8x256x256
  slices_S25x256x256_o5_0_0_S1x256x256 : S25x256x256.Slices ![5, 0, 0] S1x256x256
  slices_S8x260x260_o0_1_1_S8x256x256 : S8x260x260.Slices ![0, 1, 1] S8x256x256
  slices_S25x256x256_o6_0_0_S1x256x256 : S25x256x256.Slices ![6, 0, 0] S1x256x256
  slices_S8x260x260_o0_1_2_S8x256x256 : S8x260x260.Slices ![0, 1, 2] S8x256x256
  slices_S25x256x256_o7_0_0_S1x256x256 : S25x256x256.Slices ![7, 0, 0] S1x256x256
  slices_S8x260x260_o0_1_3_S8x256x256 : S8x260x260.Slices ![0, 1, 3] S8x256x256
  slices_S25x256x256_o8_0_0_S1x256x256 : S25x256x256.Slices ![8, 0, 0] S1x256x256
  slices_S8x260x260_o0_1_4_S8x256x256 : S8x260x260.Slices ![0, 1, 4] S8x256x256
  slices_S25x256x256_o9_0_0_S1x256x256 : S25x256x256.Slices ![9, 0, 0] S1x256x256
  slices_S8x260x260_o0_2_0_S8x256x256 : S8x260x260.Slices ![0, 2, 0] S8x256x256
  slices_S25x256x256_o10_0_0_S1x256x256 : S25x256x256.Slices ![10, 0, 0] S1x256x256
  slices_S8x260x260_o0_2_1_S8x256x256 : S8x260x260.Slices ![0, 2, 1] S8x256x256
  slices_S25x256x256_o11_0_0_S1x256x256 : S25x256x256.Slices ![11, 0, 0] S1x256x256
  slices_S8x260x260_o0_2_2_S8x256x256 : S8x260x260.Slices ![0, 2, 2] S8x256x256
  slices_S25x256x256_o12_0_0_S1x256x256 : S25x256x256.Slices ![12, 0, 0] S1x256x256
  slices_S8x260x260_o0_2_3_S8x256x256 : S8x260x260.Slices ![0, 2, 3] S8x256x256
  slices_S25x256x256_o13_0_0_S1x256x256 : S25x256x256.Slices ![13, 0, 0] S1x256x256
  slices_S8x260x260_o0_2_4_S8x256x256 : S8x260x260.Slices ![0, 2, 4] S8x256x256
  slices_S25x256x256_o14_0_0_S1x256x256 : S25x256x256.Slices ![14, 0, 0] S1x256x256
  slices_S8x260x260_o0_3_0_S8x256x256 : S8x260x260.Slices ![0, 3, 0] S8x256x256
  slices_S25x256x256_o15_0_0_S1x256x256 : S25x256x256.Slices ![15, 0, 0] S1x256x256
  slices_S8x260x260_o0_3_1_S8x256x256 : S8x260x260.Slices ![0, 3, 1] S8x256x256
  slices_S25x256x256_o16_0_0_S1x256x256 : S25x256x256.Slices ![16, 0, 0] S1x256x256
  slices_S8x260x260_o0_3_2_S8x256x256 : S8x260x260.Slices ![0, 3, 2] S8x256x256
  slices_S25x256x256_o17_0_0_S1x256x256 : S25x256x256.Slices ![17, 0, 0] S1x256x256
  slices_S8x260x260_o0_3_3_S8x256x256 : S8x260x260.Slices ![0, 3, 3] S8x256x256
  slices_S25x256x256_o18_0_0_S1x256x256 : S25x256x256.Slices ![18, 0, 0] S1x256x256
  slices_S8x260x260_o0_3_4_S8x256x256 : S8x260x260.Slices ![0, 3, 4] S8x256x256
  slices_S25x256x256_o19_0_0_S1x256x256 : S25x256x256.Slices ![19, 0, 0] S1x256x256
  slices_S8x260x260_o0_4_0_S8x256x256 : S8x260x260.Slices ![0, 4, 0] S8x256x256
  slices_S25x256x256_o20_0_0_S1x256x256 : S25x256x256.Slices ![20, 0, 0] S1x256x256
  slices_S8x260x260_o0_4_1_S8x256x256 : S8x260x260.Slices ![0, 4, 1] S8x256x256
  slices_S25x256x256_o21_0_0_S1x256x256 : S25x256x256.Slices ![21, 0, 0] S1x256x256
  slices_S8x260x260_o0_4_2_S8x256x256 : S8x260x260.Slices ![0, 4, 2] S8x256x256
  slices_S25x256x256_o22_0_0_S1x256x256 : S25x256x256.Slices ![22, 0, 0] S1x256x256
  slices_S8x260x260_o0_4_3_S8x256x256 : S8x260x260.Slices ![0, 4, 3] S8x256x256
  slices_S25x256x256_o23_0_0_S1x256x256 : S25x256x256.Slices ![23, 0, 0] S1x256x256
  slices_S8x260x260_o0_4_4_S8x256x256 : S8x260x260.Slices ![0, 4, 4] S8x256x256
  slices_S25x256x256_o24_0_0_S1x256x256 : S25x256x256.Slices ![24, 0, 0] S1x256x256
  shapeCasts_S8x256x256_S1x8x256x256 : S8x256x256.ShapeCasts S1x8x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S2x32x256x256.size a
  hwx0_0 : ∀ i : grid0.Coords, EltTy.bits .f32 = 32 ∨ (Rect.block (s := S2x32x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x25x256x256.size a ≤ S2x25x256x256.size a
  hwx0_1 : ∀ i : grid0.Coords, EltTy.bits .f32 = 32 ∨ (Rect.block (s := S2x25x256x256) S1x25x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256x256.size a ≤ S2x32x256x256.size a
  hwx0_2 : ∀ i : grid0.Coords, EltTy.bits .f32 = 32 ∨ (Rect.block (s := S2x32x256x256) S1x8x256x256.size (cc0_transform_2 i) (hinb0_2 i)).WholeWords (EltTy.packing .f32)

variable [Facts₀]

abbrev win0_0 : Pipeline.Window sig grid0 :=
  Pipeline.Window.ofSpec (Memref.whole main_arg1) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x25x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x5x5x256x256 : Shape := ⟨5, ![2, 5, 5, 256, 256]⟩
abbrev S2x32x256x256 : Shape := ⟨4, ![2, 32, 256, 256]⟩
abbrev S_ : Shape := ⟨0, ![]⟩
abbrev S2x32x260x260 : Shape := ⟨4, ![2, 32, 260, 260]⟩
abbrev S2x1x1x256x256 : Shape := ⟨5, ![2, 1, 1, 256, 256]⟩
abbrev S2x256x256 : Shape := ⟨3, ![2, 256, 256]⟩
abbrev S2x1x256x256 : Shape := ⟨4, ![2, 1, 256, 256]⟩

abbrev nBuf : Space → Nat
  | .hbm => 182
  | .vmem => 0
  | .smem => 0
  | _ => 0

abbrev hbmTy0_0 (i : Nat) : BufTy := match i % 128 with
  | 0 => ⟨S2x5x5x256x256, .f32⟩
  | 1 => ⟨S2x32x256x256, .f32⟩
  | 2 => ⟨S_, .i32⟩
  | 3 => ⟨S_, .f32⟩
  | 4 => ⟨S2x32x260x260, .f32⟩
  | 5 => ⟨S_, .f32⟩
  | 6 => ⟨S2x32x256x256, .f32⟩
  | 7 => ⟨S2x32x256x256, .f32⟩
  | 8 => ⟨S2x1x1x256x256, .f32⟩
  | 9 => ⟨S2x256x256, .f32⟩
  | 10 => ⟨S2x1x256x256, .f32⟩
  | 11 => ⟨S2x32x256x256, .f32⟩
  | 12 => ⟨S2x32x256x256, .f32⟩
  | 13 => ⟨S2x32x256x256, .f32⟩
  | 14 => ⟨S2x32x256x256, .f32⟩
  | 15 => ⟨S2x1x1x256x256, .f32⟩
  | 16 => ⟨S2x256x256, .f32⟩
  | 17 => ⟨S2x1x256x256, .f32⟩
  | 18 => ⟨S2x32x256x256, .f32⟩
  | 19 => ⟨S2x32x256x256, .f32⟩
  | 20 => ⟨S2x32x256x256, .f32⟩
  | 21 => ⟨S2x32x256x256, .f32⟩
  | 22 => ⟨S2x1x1x256x256, .f32⟩
  | 23 => ⟨S2x256x256, .f32⟩
  | 24 => ⟨S2x1x256x256, .f32⟩
  | 25 => ⟨S2x32x256x256, .f32⟩
  | 26 => ⟨S2x32x256x256, .f32⟩
  | 27 => ⟨S2x32x256x256, .f32⟩
  | 28 => ⟨S2x32x256x256, .f32⟩
  | 29 => ⟨S2x1x1x256x256, .f32⟩
  | 30 => ⟨S2x256x256, .f32⟩
  | 31 => ⟨S2x1x256x256, .f32⟩
  | 32 => ⟨S2x32x256x256, .f32⟩
  | 33 => ⟨S2x32x256x256, .f32⟩
  | 34 => ⟨S2x32x256x256, .f32⟩
  | 35 => ⟨S2x32x256x256, .f32⟩
  | 36 => ⟨S2x1x1x256x256, .f32⟩
  | 37 => ⟨S2x256x256, .f32⟩
  | 38 => ⟨S2x1x256x256, .f32⟩
  | 39 => ⟨S2x32x256x256, .f32⟩
  | 40 => ⟨S2x32x256x256, .f32⟩
  | 41 => ⟨S2x32x256x256, .f32⟩
  | 42 => ⟨S2x32x256x256, .f32⟩
  | 43 => ⟨S2x1x1x256x256, .f32⟩
  | 44 => ⟨S2x256x256, .f32⟩
  | 45 => ⟨S2x1x256x256, .f32⟩
  | 46 => ⟨S2x32x256x256, .f32⟩
  | 47 => ⟨S2x32x256x256, .f32⟩
  | 48 => ⟨S2x32x256x256, .f32⟩
  | 49 => ⟨S2x32x256x256, .f32⟩
  | 50 => ⟨S2x1x1x256x256, .f32⟩
  | 51 => ⟨S2x256x256, .f32⟩
  | 52 => ⟨S2x1x256x256, .f32⟩
  | 53 => ⟨S2x32x256x256, .f32⟩
  | 54 => ⟨S2x32x256x256, .f32⟩
  | 55 => ⟨S2x32x256x256, .f32⟩
  | 56 => ⟨S2x32x256x256, .f32⟩
  | 57 => ⟨S2x1x1x256x256, .f32⟩
  | 58 => ⟨S2x256x256, .f32⟩
  | 59 => ⟨S2x1x256x256, .f32⟩
  | 60 => ⟨S2x32x256x256, .f32⟩
  | 61 => ⟨S2x32x256x256, .f32⟩
  | 62 => ⟨S2x32x256x256, .f32⟩
  | 63 => ⟨S2x32x256x256, .f32⟩
  | 64 => ⟨S2x1x1x256x256, .f32⟩
  | 65 => ⟨S2x256x256, .f32⟩
  | 66 => ⟨S2x1x256x256, .f32⟩
  | 67 => ⟨S2x32x256x256, .f32⟩
  | 68 => ⟨S2x32x256x256, .f32⟩
  | 69 => ⟨S2x32x256x256, .f32⟩
  | 70 => ⟨S2x32x256x256, .f32⟩
  | 71 => ⟨S2x1x1x256x256, .f32⟩
  | 72 => ⟨S2x256x256, .f32⟩
  | 73 => ⟨S2x1x256x256, .f32⟩
  | 74 => ⟨S2x32x256x256, .f32⟩
  | 75 => ⟨S2x32x256x256, .f32⟩
  | 76 => ⟨S2x32x256x256, .f32⟩
  | 77 => ⟨S2x32x256x256, .f32⟩
  | 78 => ⟨S2x1x1x256x256, .f32⟩
  | 79 => ⟨S2x256x256, .f32⟩
  | 80 => ⟨S2x1x256x256, .f32⟩
  | 81 => ⟨S2x32x256x256, .f32⟩
  | 82 => ⟨S2x32x256x256, .f32⟩
  | 83 => ⟨S2x32x256x256, .f32⟩
  | 84 => ⟨S2x32x256x256, .f32⟩
  | 85 => ⟨S2x1x1x256x256, .f32⟩
  | 86 => ⟨S2x256x256, .f32⟩
  | 87 => ⟨S2x1x256x256, .f32⟩
  | 88 => ⟨S2x32x256x256, .f32⟩
  | 89 => ⟨S2x32x256x256, .f32⟩
  | 90 => ⟨S2x32x256x256, .f32⟩
  | 91 => ⟨S2x32x256x256, .f32⟩
  | 92 => ⟨S2x1x1x256x256, .f32⟩
  | 93 => ⟨S2x256x256, .f32⟩
  | 94 => ⟨S2x1x256x256, .f32⟩
  | 95 => ⟨S2x32x256x256, .f32⟩
  | 96 => ⟨S2x32x256x256, .f32⟩
  | 97 => ⟨S2x32x256x256, .f32⟩
  | 98 => ⟨S2x32x256x256, .f32⟩
  | 99 => ⟨S2x1x1x256x256, .f32⟩
  | 100 => ⟨S2x256x256, .f32⟩
  | 101 => ⟨S2x1x256x256, .f32⟩
  | 102 => ⟨S2x32x256x256, .f32⟩
  | 103 => ⟨S2x32x256x256, .f32⟩
  | 104 => ⟨S2x32x256x256, .f32⟩
  | 105 => ⟨S2x32x256x256, .f32⟩
  | 106 => ⟨S2x1x1x256x256, .f32⟩
  | 107 => ⟨S2x256x256, .f32⟩
  | 108 => ⟨S2x1x256x256, .f32⟩
  | 109 => ⟨S2x32x256x256, .f32⟩
  | 110 => ⟨S2x32x256x256, .f32⟩
  | 111 => ⟨S2x32x256x256, .f32⟩
  | 112 => ⟨S2x32x256x256, .f32⟩
  | 113 => ⟨S2x1x1x256x256, .f32⟩
  | 114 => ⟨S2x256x256, .f32⟩
  | 115 => ⟨S2x1x256x256, .f32⟩
  | 116 => ⟨S2x32x256x256, .f32⟩
  | 117 => ⟨S2x32x256x256, .f32⟩
  | 118 => ⟨S2x32x256x256, .f32⟩
  | 119 => ⟨S2x32x256x256, .f32⟩
  | 120 => ⟨S2x1x1x256x256, .f32⟩
  | 121 => ⟨S2x256x256, .f32⟩
  | 122 => ⟨S2x1x256x256, .f32⟩
  | 123 => ⟨S2x32x256x256, .f32⟩
  | 124 => ⟨S2x32x256x256, .f32⟩
  | 125 => ⟨S2x32x256x256, .f32⟩
  | 126 => ⟨S2x32x256x256, .f32⟩
  | 127 => ⟨S2x1x1x256x256, .f32⟩
  | _ => ⟨S2x5x5x256x256, .f32⟩

abbrev hbmTy0_1 (i : Nat) : BufTy := match i % 128 with
  | 0 => ⟨S2x256x256, .f32⟩
  | 1 => ⟨S2x1x256x256, .f32⟩
  | 2 => ⟨S2x32x256x256, .f32⟩
  | 3 => ⟨S2x32x256x256, .f32⟩
  | 4 => ⟨S2x32x256x256, .f32⟩
  | 5 => ⟨S2x32x256x256, .f32⟩
  | 6 => ⟨S2x1x1x256x256, .f32⟩
  | 7 => ⟨S2x256x256, .f32⟩
  | 8 => ⟨S2x1x256x256, .f32⟩
  | 9 => ⟨S2x32x256x256, .f32⟩
  | 10 => ⟨S2x32x256x256, .f32⟩
  | 11 => ⟨S2x32x256x256, .f32⟩
  | 12 => ⟨S2x32x256x256, .f32⟩
  | 13 => ⟨S2x1x1x256x256, .f32⟩
  | 14 => ⟨S2x256x256, .f32⟩
  | 15 => ⟨S2x1x256x256, .f32⟩
  | 16 => ⟨S2x32x256x256, .f32⟩
  | 17 => ⟨S2x32x256x256, .f32⟩
  | 18 => ⟨S2x32x256x256, .f32⟩
  | 19 => ⟨S2x32x256x256, .f32⟩
  | 20 => ⟨S2x1x1x256x256, .f32⟩
  | 21 => ⟨S2x256x256, .f32⟩
  | 22 => ⟨S2x1x256x256, .f32⟩
  | 23 => ⟨S2x32x256x256, .f32⟩
  | 24 => ⟨S2x32x256x256, .f32⟩
  | 25 => ⟨S2x32x256x256, .f32⟩
  | 26 => ⟨S2x32x256x256, .f32⟩
  | 27 => ⟨S2x1x1x256x256, .f32⟩
  | 28 => ⟨S2x256x256, .f32⟩
  | 29 => ⟨S2x1x256x256, .f32⟩
  | 30 => ⟨S2x32x256x256, .f32⟩
  | 31 => ⟨S2x32x256x256, .f32⟩
  | 32 => ⟨S2x32x256x256, .f32⟩
  | 33 => ⟨S2x32x256x256, .f32⟩
  | 34 => ⟨S2x1x1x256x256, .f32⟩
  | 35 => ⟨S2x256x256, .f32⟩
  | 36 => ⟨S2x1x256x256, .f32⟩
  | 37 => ⟨S2x32x256x256, .f32⟩
  | 38 => ⟨S2x32x256x256, .f32⟩
  | 39 => ⟨S2x32x256x256, .f32⟩
  | 40 => ⟨S2x32x256x256, .f32⟩
  | 41 => ⟨S2x1x1x256x256, .f32⟩
  | 42 => ⟨S2x256x256, .f32⟩
  | 43 => ⟨S2x1x256x256, .f32⟩
  | 44 => ⟨S2x32x256x256, .f32⟩
  | 45 => ⟨S2x32x256x256, .f32⟩
  | 46 => ⟨S2x32x256x256, .f32⟩
  | 47 => ⟨S2x32x256x256, .f32⟩
  | 48 => ⟨S2x1x1x256x256, .f32⟩
  | 49 => ⟨S2x256x256, .f32⟩
  | 50 => ⟨S2x1x256x256, .f32⟩
  | 51 => ⟨S2x32x256x256, .f32⟩
  | 52 => ⟨S2x32x256x256, .f32⟩
  | 53 => ⟨S2x32x256x256, .f32⟩
  | _ => ⟨S2x5x5x256x256, .f32⟩

abbrev hbmTy (i : Nat) : BufTy := match i / 128 with
  | 0 => hbmTy0_0 i
  | 1 => hbmTy0_1 i
  | _ => ⟨S2x5x5x256x256, .f32⟩

abbrev bufTy : (tb : Table) → Fin (tcTables nBuf tb) → BufTy
  | .hbm, ⟨i, _⟩ => hbmTy i
  | _, _ => ⟨S2x5x5x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩

abbrev nD : Nat := 1
abbrev τ : Topo := Topo.v7x

variable {F : FTy → Type} [FloatOps F]

class Facts₀ : Prop where
  pads_S2x32x256x256_S2x32x260x260_000_000_220_220 : S2x32x256x256.Pads (![0, 0, 2, 2] : Fin 4 → Nat) ![0, 0, 2, 2] ![0, 0, 0, 0] S2x32x260x260
  h_S_ : 0 < S_.numel
  bcast_S_S2x32x256x256 : S_.BroadcastsInDim S2x32x256x256 (![] : Fin 0 → Fin S2x32x256x256.rank)
  slices_S2x32x260x260_S2x32x256x256_0_0_0_0 : S2x32x260x260.Slices ![0, 0, 0, 0] S2x32x256x256
  slices_S2x5x5x256x256_S2x1x1x256x256_0_0_0_0_0 : S2x5x5x256x256.Slices ![0, 0, 0, 0, 0] S2x1x1x256x256
  shapeCasts_S2x1x1x256x256_S2x256x256 : S2x1x1x256x256.ShapeCasts S2x256x256
  bcast_S2x256x256_S2x1x256x256_0_2_3 : S2x256x256.BroadcastsInDim S2x1x256x256 (![0, 2, 3] : Fin 3 → Fin S2x1x256x256.rank)
  bcast_S2x1x256x256_S2x32x256x256_0_1_2_3 : S2x1x256x256.BroadcastsInDim S2x32x256x256 (![0, 1, 2, 3] : Fin 4 → Fin S2x32x256x256.rank)
  slices_S2x32x260x260_S2x32x256x256_0_0_0_1 : S2x32x260x260.Slices ![0, 0, 0, 1] S2x32x256x256
  slices_S2x5x5x256x256_S2x1x1x256x256_0_0_1_0_0 : S2x5x5x256x256.Slices ![0, 0, 1, 0, 0] S2x1x1x256x256
  slices_S2x32x260x260_S2x32x256x256_0_0_0_2 : S2x32x260x260.Slices ![0, 0, 0, 2] S2x32x256x256
  slices_S2x5x5x256x256_S2x1x1x256x256_0_0_2_0_0 : S2x5x5x256x256.Slices ![0, 0, 2, 0, 0] S2x1x1x256x256
  slices_S2x32x260x260_S2x32x256x256_0_0_0_3 : S2x32x260x260.Slices ![0, 0, 0, 3] S2x32x256x256
  slices_S2x5x5x256x256_S2x1x1x256x256_0_0_3_0_0 : S2x5x5x256x256.Slices ![0, 0, 3, 0, 0] S2x1x1x256x256
  slices_S2x32x260x260_S2x32x256x256_0_0_0_4 : S2x32x260x260.Slices ![0, 0, 0, 4] S2x32x256x256
  slices_S2x5x5x256x256_S2x1x1x256x256_0_0_4_0_0 : S2x5x5x256x256.Slices ![0, 0, 4, 0, 0] S2x1x1x256x256
  slices_S2x32x260x260_S2x32x256x256_0_0_1_0 : S2x32x260x260.Slices ![0, 0, 1, 0] S2x32x256x256
  slices_S2x5x5x256x256_S2x1x1x256x256_0_1_0_0_0 : S2x5x5x256x256.Slices ![0, 1, 0, 0, 0] S2x1x1x256x256
  slices_S2x32x260x260_S2x32x256x256_0_0_1_1 : S2x32x260x260.Slices ![0, 0, 1, 1] S2x32x256x256
  slices_S2x5x5x256x256_S2x1x1x256x256_0_1_1_0_0 : S2x5x5x256x256.Slices ![0, 1, 1, 0, 0] S2x1x1x256x256
  slices_S2x32x260x260_S2x32x256x256_0_0_1_2 : S2x32x260x260.Slices ![0, 0, 1, 2] S2x32x256x256
  slices_S2x5x5x256x256_S2x1x1x256x256_0_1_2_0_0 : S2x5x5x256x256.Slices ![0, 1, 2, 0, 0] S2x1x1x256x256
  slices_S2x32x260x260_S2x32x256x256_0_0_1_3 : S2x32x260x260.Slices ![0, 0, 1, 3] S2x32x256x256
  slices_S2x5x5x256x256_S2x1x1x256x256_0_1_3_0_0 : S2x5x5x256x256.Slices ![0, 1, 3, 0, 0] S2x1x1x256x256
  slices_S2x32x260x260_S2x32x256x256_0_0_1_4 : S2x32x260x260.Slices ![0, 0, 1, 4] S2x32x256x256
  slices_S2x5x5x256x256_S2x1x1x256x256_0_1_4_0_0 : S2x5x5x256x256.Slices ![0, 1, 4, 0, 0] S2x1x1x256x256
  slices_S2x32x260x260_S2x32x256x256_0_0_2_0 : S2x32x260x260.Slices ![0, 0, 2, 0] S2x32x256x256
  slices_S2x5x5x256x256_S2x1x1x256x256_0_2_0_0_0 : S2x5x5x256x256.Slices ![0, 2, 0, 0, 0] S2x1x1x256x256
  slices_S2x32x260x260_S2x32x256x256_0_0_2_1 : S2x32x260x260.Slices ![0, 0, 2, 1] S2x32x256x256
  slices_S2x5x5x256x256_S2x1x1x256x256_0_2_1_0_0 : S2x5x5x256x256.Slices ![0, 2, 1, 0, 0] S2x1x1x256x256
  slices_S2x32x260x260_S2x32x256x256_0_0_2_2 : S2x32x260x260.Slices ![0, 0, 2, 2] S2x32x256x256
  slices_S2x5x5x256x256_S2x1x1x256x256_0_2_2_0_0 : S2x5x5x256x256.Slices ![0, 2, 2, 0, 0] S2x1x1x256x256
  slices_S2x32x260x260_S2x32x256x256_0_0_2_3 : S2x32x260x260.Slices ![0, 0, 2, 3] S2x32x256x256
  slices_S2x5x5x256x256_S2x1x1x256x256_0_2_3_0_0 : S2x5x5x256x256.Slices ![0, 2, 3, 0, 0] S2x1x1x256x256
  slices_S2x32x260x260_S2x32x256x256_0_0_2_4 : S2x32x260x260.Slices ![0, 0, 2, 4] S2x32x256x256
  slices_S2x5x5x256x256_S2x1x1x256x256_0_2_4_0_0 : S2x5x5x256x256.Slices ![0, 2, 4, 0, 0] S2x1x1x256x256
  slices_S2x32x260x260_S2x32x256x256_0_0_3_0 : S2x32x260x260.Slices ![0, 0, 3, 0] S2x32x256x256
  slices_S2x5x5x256x256_S2x1x1x256x256_0_3_0_0_0 : S2x5x5x256x256.Slices ![0, 3, 0, 0, 0] S2x1x1x256x256
  slices_S2x32x260x260_S2x32x256x256_0_0_3_1 : S2x32x260x260.Slices ![0, 0, 3, 1] S2x32x256x256
  slices_S2x5x5x256x256_S2x1x1x256x256_0_3_1_0_0 : S2x5x5x256x256.Slices ![0, 3, 1, 0, 0] S2x1x1x256x256
  slices_S2x32x260x260_S2x32x256x256_0_0_3_2 : S2x32x260x260.Slices ![0, 0, 3, 2] S2x32x256x256
  slices_S2x5x5x256x256_S2x1x1x256x256_0_3_2_0_0 : S2x5x5x256x256.Slices ![0, 3, 2, 0, 0] S2x1x1x256x256
  slices_S2x32x260x260_S2x32x256x256_0_0_3_3 : S2x32x260x260.Slices ![0, 0, 3, 3] S2x32x256x256
  slices_S2x5x5x256x256_S2x1x1x256x256_0_3_3_0_0 : S2x5x5x256x256.Slices ![0, 3, 3, 0, 0] S2x1x1x256x256
  slices_S2x32x260x260_S2x32x256x256_0_0_3_4 : S2x32x260x260.Slices ![0, 0, 3, 4] S2x32x256x256
  slices_S2x5x5x256x256_S2x1x1x256x256_0_3_4_0_0 : S2x5x5x256x256.Slices ![0, 3, 4, 0, 0] S2x1x1x256x256
  slices_S2x32x260x260_S2x32x256x256_0_0_4_0 : S2x32x260x260.Slices ![0, 0, 4, 0] S2x32x256x256
  slices_S2x5x5x256x256_S2x1x1x256x256_0_4_0_0_0 : S2x5x5x256x256.Slices ![0, 4, 0, 0, 0] S2x1x1x256x256
  slices_S2x32x260x260_S2x32x256x256_0_0_4_1 : S2x32x260x260.Slices ![0, 0, 4, 1] S2x32x256x256
  slices_S2x5x5x256x256_S2x1x1x256x256_0_4_1_0_0 : S2x5x5x256x256.Slices ![0, 4, 1, 0, 0] S2x1x1x256x256
  slices_S2x32x260x260_S2x32x256x256_0_0_4_2 : S2x32x260x260.Slices ![0, 0, 4, 2] S2x32x256x256
  slices_S2x5x5x256x256_S2x1x1x256x256_0_4_2_0_0 : S2x5x5x256x256.Slices ![0, 4, 2, 0, 0] S2x1x1x256x256
  slices_S2x32x260x260_S2x32x256x256_0_0_4_3 : S2x32x260x260.Slices ![0, 0, 4, 3] S2x32x256x256
  slices_S2x5x5x256x256_S2x1x1x256x256_0_4_3_0_0 : S2x5x5x256x256.Slices ![0, 4, 3, 0, 0] S2x1x1x256x256
  slices_S2x32x260x260_S2x32x256x256_0_0_4_4 : S2x32x260x260.Slices ![0, 0, 4, 4] S2x32x256x256
  slices_S2x5x5x256x256_S2x1x1x256x256_0_4_4_0_0 : S2x5x5x256x256.Slices ![0, 4, 4, 0, 0] S2x1x1x256x256

variable [Facts₀]

class Facts : Prop extends Facts₀ where

variable [Facts]
-- ==== Proof.SvcSpec.lean ====
/-
  A spatially varying 5×5 filter over a zero-padded feature map, as ONE function of the two argument arrays.

  For a batch entry b, a channel c and a pixel (y, x) the result is

      z₀ + Σ_{(i, j) in row-major order over 5 × 5}  pad(features)[b, c, y + i, x + j] · kernels[b, i, j, y, x],

  the sum taken left to right starting from z₀, where pad(features) is the feature map with a border of
  two entries of the value z on each side of both spatial axes.  Nothing here uses a law of arithmetic: the
  two programs add the same 25 products in the same order, so the terms are compared one by one.

  This file holds the function (svc), the pieces it is made of (a padded read, a read of one filter tap), a
  congruence for the 25-term sum, and the reading at an index of the layout operations through which each
  program reaches those pieces.
-/
import Idealize.ShloMosaic.PureOps.Ideal
import Idealize.ShloMosaic.Lib.ValueIdx
import Idealize.ShloMosaic.Lib.Pipeline.Value
import Idealize.ShloMosaic.Lib.KernelVsHost

noncomputable section

namespace Cert.Svc

open Idealize.ShloMosaic Idealize.ShloMosaic.ValueIdx

/-! ## Shapes -/

abbrev SKern : Shape := ⟨5, ![2, 5, 5, 256, 256]⟩
abbrev SKernFlat : Shape := ⟨4, ![2, 25, 256, 256]⟩
abbrev SFeat : Shape := ⟨4, ![2, 32, 256, 256]⟩
abbrev SPad : Shape := ⟨4, ![2, 32, 260, 260]⟩
abbrev SKernTap5 : Shape := ⟨5, ![2, 1, 1, 256, 256]⟩
abbrev SKernTap3 : Shape := ⟨3, ![2, 256, 256]⟩
abbrev SKernTap4 : Shape := ⟨4, ![2, 1, 256, 256]⟩
abbrev SFeatBlk : Shape := ⟨4, ![1, 8, 256, 256]⟩
abbrev SKernBlk : Shape := ⟨4, ![1, 25, 256, 256]⟩

section Pieces
variable {α : Type}

/-- A 256 × 256 plane f read at padded coordinates (u, v) of the 260 × 260 plane around it: the plane's entry
    (u − 2, v − 2) when both lie in [2, 258), the border value z otherwise. -/
def padOf (z : α) (f : Fin 256 → Fin 256 → α) (u v : Nat) : α :=
  if h : (2 ≤ u ∧ u < 258) ∧ (2 ≤ v ∧ v < 258) then f ⟨u - 2, by omega⟩ ⟨v - 2, by omega⟩ else z

/-- Tap (i, j) of the per-pixel filters at batch entry b and pixel (y, x) (d outside the 5 × 5 taps). -/
def kAt (d : α) (A0 : SKern.Idx → α) (b : Fin 2) (i j : Nat) (y x : Fin 256) : α :=
  if h : i < 5 ∧ j < 5 then A0 (ix5 b ⟨i, h.1⟩ ⟨j, h.2⟩ y x) else d

/-- Tap (i, j) of one batch entry's block of the filters laid out with the 25 taps on one axis: tap 5 i + j. -/
def tapAt (d : α) (P1 : SKernBlk.Idx → α) (i j : Nat) (y x : Fin 256) : α :=
  if h : i < 5 ∧ j < 5 then P1 (ix4 0 ⟨5 * i + j, by omega⟩ y x) else d

end Pieces

/-- The 25 taps in the order both programs add them: row-major over (i, j). -/
def taps : List (Nat × Nat) :=
  [(0, 0), (0, 1), (0, 2), (0, 3), (0, 4), (1, 0), (1, 1), (1, 2), (1, 3), (1, 4), (2, 0), (2, 1), (2, 2), (2, 3), (2, 4),
   (3, 0), (3, 1), (3, 2), (3, 3), (3, 4), (4, 0), (4, 1), (4, 2), (4, 3), (4, 4)]

theorem taps_lt : ∀ p ∈ taps, p.1 < 5 ∧ p.2 < 5 := by decide

/-- The border value both programs pad with: the integer 0 converted to a float (a word's signed value, as a real). -/
abbrev zPad : EReal := (((0#32 : BitVec 32).toInt : ℝ) : EReal)
/-- The value both sums start from: the constant 0.0, as the word's value. -/
abbrev zAcc : EReal := Ideal.ofBits .f32 0x00000000#32

/-- The filtered value at (b, c, y, x) from whole arrays: z₀ plus the 25 products, left to right. -/
def svcAt (z z0 : EReal) (A0 : SKern.Idx → EReal) (A1 : SFeat.Idx → EReal) (b : Fin 2) (c : Fin 32) (y x : Fin 256) : EReal :=
  taps.foldl (fun acc p => acc + padOf z (fun r s => A1 (ix4 b c r s)) (y.val + p.1) (x.val + p.2) * kAt z A0 b p.1 p.2 y x) z0

/-- The filtered array. -/
def svc (z z0 : EReal) (A0 : SKern.Idx → EReal) (A1 : SFeat.Idx → EReal) : SFeat.Idx → EReal :=
  fun q => svcAt z z0 A0 A1 (q 0) (q 1) (q 2) (q 3)

/-- The same value from one grid point's blocks: 8 channels of one batch entry's features, that entry's 25 taps. -/
def svcBlk (z z0 : EReal) (P0 : SFeatBlk.Idx → EReal) (P1 : SKernBlk.Idx → EReal) (c : Fin 8) (y x : Fin 256) : EReal :=
  taps.foldl (fun acc p => acc + padOf z (fun r s => P0 (ix4 0 c r s)) (y.val + p.1) (x.val + p.2) * tapAt z P1 p.1 p.2 y x) z0

/-- Two sums over the taps whose terms agree tap by tap are equal. -/
theorem foldl_taps_congr (f g : Nat × Nat → EReal) (z0 : EReal) (h : ∀ p ∈ taps, f p = g p) :
    taps.foldl (fun acc p => acc + f p) z0 = taps.foldl (fun acc p => acc + g p) z0 := by
  have key : ∀ (l : List (Nat × Nat)) (a : EReal), (∀ p ∈ l, f p = g p) →
      l.foldl (fun acc p => acc + f p) a = l.foldl (fun acc p => acc + g p) a := by
    intro l
    induction l with
    | nil => intro a _; rfl
    | cons p l ih =>
      intro a hl
      simp only [List.foldl_cons]
      rw [hl p (List.mem_cons_self ..)]
      exact ih _ fun q hq => hl q (List.mem_cons_of_mem _ hq)
  exact key taps z0 h

/-! ## The reference's leaves read at an index -/

section Leaves
variable {α : Type}

/-- The host's pad by two on each side of the two spatial axes, read at an index, is the padded read of that
    plane. -/
theorem pad_at (A1 : SFeat.Idx → α) {u : Shape} (zv : u.Idx → α)
    (hp : SFeat.Pads ![0, 0, 2, 2] ![0, 0, 2, 2] ![0, 0, 0, 0] SPad) (hu : 0 < u.numel)
    (b : Fin 2) (c : Fin 32) (p q : Fin 260) :
    pad SPad ![0, 0, 2, 2] ![0, 0, 2, 2] ![0, 0, 0, 0] A1 zv hp hu (ix4 b c p q)
      = padOf (zv (Shape.Idx.first hu)) (fun r s => A1 (ix4 b c r s)) p.val q.val := by
  unfold padOf
  split_ifs with hin
  · exact pad_apply_of_inside _ _ _ A1 zv hp hu _ (ix4 b c ⟨p.val - 2, by omega⟩ ⟨q.val - 2, by omega⟩) (fun a => by
      match a with
      | ⟨0, _⟩ => show b.val = 0 + b.val * (0 + 1); omega
      | ⟨1, _⟩ => show c.val = 0 + c.val * (0 + 1); omega
      | ⟨2, _⟩ => show p.val = 2 + (p.val - 2) * (0 + 1); omega
      | ⟨3, _⟩ => show q.val = 2 + (q.val - 2) * (0 + 1); omega)
  · by_cases hP : 2 ≤ p.val ∧ p.val < 258
    · refine pad_apply_of_not_inside _ _ _ A1 zv hp hu _ ⟨3, by decide⟩ (fun hc => hin ⟨hP, ?_⟩)
      have h1 : 2 ≤ q.val := hc.1
      have h3 : (q.val - 2) / (0 + 1) < 256 := hc.2.2
      omega
    · refine pad_apply_of_not_inside _ _ _ A1 zv hp hu _ ⟨2, by decide⟩ (fun hc => hP ?_)
      have h1 : 2 ≤ p.val := hc.1
      have h3 : (p.val - 2) / (0 + 1) < 256 := hc.2.2
      omega

/-- A 256 × 256 window of the padded features at offset (i, j), read at (b, c, y, x): the padded read at
    (y + i, x + j). -/
theorem slice_pad_apply (i j : Nat) (A1 : SFeat.Idx → α) {u : Shape} (zv : u.Idx → α)
    (hp : SFeat.Pads ![0, 0, 2, 2] ![0, 0, 2, 2] ![0, 0, 0, 0] SPad) (hu : 0 < u.numel)
    (h : SPad.Slices ![0, 0, i, j] SFeat) (b : Fin 2) (c : Fin 32) (y x : Fin 256) :
    extractStridedSlice SFeat ![0, 0, i, j] (pad SPad ![0, 0, 2, 2] ![0, 0, 2, 2] ![0, 0, 0, 0] A1 zv hp hu) h (ix4 b c y x)
      = padOf (zv (Shape.Idx.first hu)) (fun r s => A1 (ix4 b c r s)) (y.val + i) (x.val + j) := by
  have hi : i + 256 ≤ 260 := h.2 (2 : Fin 4)
  have hj : j + 256 ≤ 260 := h.2 (3 : Fin 4)
  refine (extractStridedSlice_apply _ _ h (ix4 b c y x) (ix4 b c ⟨y.val + i, by omega⟩ ⟨x.val + j, by omega⟩) (fun a => ?_)).trans
    (pad_at A1 zv hp hu b c _ _)
  match a with
  | ⟨0, _⟩ => show b.val = 0 + b.val; omega
  | ⟨1, _⟩ => show c.val = 0 + c.val; omega
  | ⟨2, _⟩ => show y.val + i = i + y.val; omega
  | ⟨3, _⟩ => show x.val + j = j + x.val; omega

/-- Tap (i, j) of the filters, cut out, squeezed and broadcast over the channels, read at (b, c, y, x). -/
theorem kern_tap_apply (i j : Nat) (d : α) (A0 : SKern.Idx → α)
    (h3 : SKern.Slices ![0, i, j, 0, 0] SKernTap5) (h4 : SKernTap5.ShapeCasts SKernTap3)
    (h2 : SKernTap3.BroadcastsInDim SKernTap4 ![0, 2, 3]) (h1 : SKernTap4.BroadcastsInDim SFeat ![0, 1, 2, 3])
    (b : Fin 2) (c : Fin 32) (y x : Fin 256) :
    broadcastInDim SFeat ![0, 1, 2, 3] h1 (broadcastInDim SKernTap4 ![0, 2, 3] h2
        (shapeCast SKernTap3 (extractStridedSlice SKernTap5 ![0, i, j, 0, 0] A0 h3) h4)) (ix4 b c y x)
      = kAt d A0 b i j y x := by
  have hi : i + 1 ≤ 5 := h3.2 (1 : Fin 5)
  have hj : j + 1 ≤ 5 := h3.2 (2 : Fin 5)
  unfold kAt
  rw [dif_pos ⟨by omega, by omega⟩]
  refine (broadcastInDim_apply _ h1 _ (ix4 b c y x) (ix4 b 0 y x) (fun a => ?_)).trans ?_
  · match a with
    | ⟨0, _⟩ => rfl
    | ⟨1, _⟩ => rfl
    | ⟨2, _⟩ => rfl
    | ⟨3, _⟩ => rfl
  refine (broadcastInDim_apply _ h2 _ (ix4 b 0 y x) (ix3 b y x) (fun a => ?_)).trans ?_
  · match a with
    | ⟨0, _⟩ => rfl
    | ⟨1, _⟩ => rfl
    | ⟨2, _⟩ => rfl
  refine (shapeCast_apply _ h4 (ix3 b y x) (ix5 b 0 0 y x) ?_).trans ?_
  · rw [Shape.rowMajor_val_five, Shape.rowMajor_val_three]
    show ((((b.val * 1 + 0) * 1 + 0) * 256 + y.val) * 256 + x.val) = (b.val * 256 + y.val) * 256 + x.val
    omega
  refine extractStridedSlice_apply _ A0 h3 (ix5 b 0 0 y x) _ (fun a => ?_)
  match a with
  | ⟨0, _⟩ => show b.val = 0 + b.val; omega
  | ⟨1, _⟩ => show i = i + 0; omega
  | ⟨2, _⟩ => show j = j + 0; omega
  | ⟨3, _⟩ => show y.val = 0 + y.val; omega
  | ⟨4, _⟩ => show x.val = 0 + x.val; omega

end Leaves

end Cert.Svc

end
-- ==== Proof.SvcReference.lean ====
/-
  The reference's result is the filtered array.

  The reference pads the features on the host (two entries of the converted integer 0 on each side of both
  spatial axes), and for each of the 25 taps in row-major order cuts the 256 × 256 window of the padded features
  at offset (i, j), cuts tap (i, j) out of the filters, broadcasts it over the 32 channels, multiplies, and adds
  the product to a sum that starts from the constant 0.0.  Read at (b, c, y, x) its result is therefore term by
  term the sum that defines svc: the two sums are matched addend by addend, each factor by the reading of its
  layout operations at an index.
-/
import proofs.«174837_j47708496724546_1_alg».proof.Proof.ReferenceIdealRunWindows
import proofs.«174837_j47708496724546_1_alg».proof.Proof.SvcSpec

noncomputable section

namespace Cert.ReferenceIdeal.RefValue

open Cert.ReferenceIdeal Cert.ReferenceIdeal.Gen Cert.ReferenceIdeal.Value Cert.Svc
open Idealize.ShloMosaic Idealize.ShloMosaic.ValueIdx Idealize.ShloMosaic.TcCoe Idealize.SL.Sem Idealize.ShloMosaic.StableHlo

set_option maxRecDepth 8192 in
/-- The reference's result array is svc of the two arguments: at every index the same 25 products added in the
    same order onto the same start value. -/
theorem result_eq (m : (ℓ : Loc nD τ sig) → Buf (Elt Ideal) ℓ) (c : Dev nD) :
    (res_main_v176 (F := Ideal) (launchContents m c) : SFeat.Idx → EReal)
      = svc zPad zAcc (m ((c.tc : Thread nD τ).loc main_arg0)) (m ((c.tc : Thread nD τ).loc main_arg1)) := by
  funext q
  obtain ⟨b, ch, y, x, rfl⟩ : ∃ b ch y x, q = ix4 b ch y x := ⟨q 0, q 1, q 2, q 3, eq_ix4 q⟩
  show res_main_v176 (launchContents m c) (ix4 b ch y x) = svcAt zPad zAcc _ _ b ch y x
  unfold res_main_v176 res_main_v113 res_main_v57 res_main_v114 res_main_v117 res_main_v0 svcAt taps
  simp only [List.foldl_cons, List.foldl_nil, addf_apply, mulf_apply]
  iterate 25 (refine congrArg₂ (· + ·) ?_ (congrArg₂ (· * ·) ?_ ?_))
  all_goals first
    | exact slice_pad_apply _ _ _ _ _ _ _ _ _ _ _
    | exact kern_tap_apply _ _ _ _ _ _ _ _ _ _ _ _
    | rfl

end Cert.ReferenceIdeal.RefValue

end
-- ==== Proof.SvcBorder.lean ====
/-
  The kernel's side of the padded read and of the filter taps.

  The kernel pads one block of 8 feature planes inside its body: two rows of the value z are joined above and
  below every plane (along axis 1), then two columns on the left and on the right (along axis 2).  Read at
  (c, p, q) the result is the padded read of plane c at (p, q): the first lemma, by following the index
  through the four joins.

  The filters reach the kernel with their 5 × 5 taps laid on ONE axis of 25 (a row-major reshape made before the
  launch): tap (i, j) is entry 5 i + j of that axis.
-/
import proofs.«174837_j47708496724546_1_alg».proof.Proof.SvcSpec

noncomputable section

namespace Cert.Svc

open Idealize.ShloMosaic Idealize.ShloMosaic.ValueIdx

abbrev TPlanes : Shape := ⟨3, ![8, 256, 256]⟩
abbrev TRows2 : Shape := ⟨3, ![8, 2, 256]⟩
abbrev TRows258 : Shape := ⟨3, ![8, 258, 256]⟩
abbrev TRows260 : Shape := ⟨3, ![8, 260, 256]⟩
abbrev TCols2 : Shape := ⟨3, ![8, 260, 2]⟩
abbrev TCols258 : Shape := ⟨3, ![8, 260, 258]⟩
abbrev TCols260 : Shape := ⟨3, ![8, 260, 260]⟩
abbrev TTaps : Shape := ⟨3, ![25, 256, 256]⟩
abbrev TTap1 : Shape := ⟨3, ![1, 256, 256]⟩
abbrev TTap2 : Shape := ⟨2, ![256, 256]⟩

section Border
variable {α : Type}

/-- Eight planes with a border of two entries of z joined on every side, read at (c, p, q). -/
theorem concat_border_apply (z : α) (v1 : TPlanes.Idx → α)
    (h1 : Shape.Concatenates [TRows2, TPlanes] TRows258 1) (h2 : Shape.Concatenates [TRows258, TRows2] TRows260 1)
    (h3 : Shape.Concatenates [TCols2, TRows260] TCols258 2) (h4 : Shape.Concatenates [TCols258, TCols2] TCols260 2)
    (c : Fin 8) (p q : Fin 260) :
    concatenate TCols260 2
        [⟨TCols258, concatenate TCols258 2
            [⟨TCols2, broadcast TCols2 z⟩,
             ⟨TRows260, concatenate TRows260 1
                [⟨TRows258, concatenate TRows258 1 [⟨TRows2, broadcast TRows2 z⟩, ⟨TPlanes, v1⟩] h1⟩,
                 ⟨TRows2, broadcast TRows2 z⟩] h2⟩] h3⟩,
         ⟨TCols2, broadcast TCols2 z⟩] h4 (ix3 c p q)
      = padOf z (fun r s => v1 (ix3 c r s)) p.val q.val := by
  unfold padOf
  by_cases hq1 : q.val < 258
  · -- left of the right border: the first piece of the outer join
    rw [concatenate_pair_apply_left 2 _ _ h4 (ix3 c p q) rfl (ix3 c p ⟨q.val, hq1⟩)
      (fun b => by match b with | ⟨0, _⟩ => rfl | ⟨1, _⟩ => rfl | ⟨2, _⟩ => rfl)]
    by_cases hq0 : 2 ≤ q.val
    · -- right of the left border: the second piece, two columns to the left
      rw [concatenate_pair_apply_right 2 _ _ h3 (ix3 c p ⟨q.val, hq1⟩) rfl rfl (ix3 c p ⟨q.val - 2, by omega⟩)
        (fun b hb => by match b, hb with | ⟨0, _⟩, _ => rfl | ⟨1, _⟩, _ => rfl | ⟨2, _⟩, hb => exact absurd rfl hb)
        (by show q.val - 2 + 2 = q.val; omega)]
      by_cases hp1 : p.val < 258
      · rw [concatenate_pair_apply_left 1 _ _ h2 (ix3 c p ⟨q.val - 2, by omega⟩) rfl (ix3 c ⟨p.val, hp1⟩ ⟨q.val - 2, by omega⟩)
          (fun b => by match b with | ⟨0, _⟩ => rfl | ⟨1, _⟩ => rfl | ⟨2, _⟩ => rfl)]
        by_cases hp0 : 2 ≤ p.val
        · rw [concatenate_pair_apply_right 1 _ _ h1 (ix3 c ⟨p.val, hp1⟩ ⟨q.val - 2, by omega⟩) rfl rfl
            (ix3 c ⟨p.val - 2, by omega⟩ ⟨q.val - 2, by omega⟩)
            (fun b hb => by match b, hb with | ⟨0, _⟩, _ => rfl | ⟨1, _⟩, hb => exact absurd rfl hb | ⟨2, _⟩, _ => rfl)
            (by show p.val - 2 + 2 = p.val; omega)]
          rw [dif_pos ⟨⟨hp0, hp1⟩, ⟨hq0, hq1⟩⟩]
        · rw [concatenate_pair_apply_left 1 _ _ h1 (ix3 c ⟨p.val, hp1⟩ ⟨q.val - 2, by omega⟩) rfl
            (ix3 c ⟨p.val, by omega⟩ ⟨q.val - 2, by omega⟩)
            (fun b => by match b with | ⟨0, _⟩ => rfl | ⟨1, _⟩ => rfl | ⟨2, _⟩ => rfl)]
          rw [dif_neg (fun h => hp0 h.1.1)]
          rfl
      · rw [concatenate_pair_apply_right 1 _ _ h2 (ix3 c p ⟨q.val - 2, by omega⟩) rfl rfl
          (ix3 c ⟨p.val - 258, by omega⟩ ⟨q.val - 2, by omega⟩)
          (fun b hb => by match b, hb with | ⟨0, _⟩, _ => rfl | ⟨1, _⟩, hb => exact absurd rfl hb | ⟨2, _⟩, _ => rfl)
          (by show p.val - 258 + 258 = p.val; omega)]
        rw [dif_neg (fun h => hp1 h.1.2)]
        rfl
    · rw [concatenate_pair_apply_left 2 _ _ h3 (ix3 c p ⟨q.val, hq1⟩) rfl (ix3 c p ⟨q.val, by omega⟩)
        (fun b => by match b with | ⟨0, _⟩ => rfl | ⟨1, _⟩ => rfl | ⟨2, _⟩ => rfl)]
      rw [dif_neg (fun h => hq0 h.2.1)]
      rfl
  · rw [concatenate_pair_apply_right 2 _ _ h4 (ix3 c p q) rfl rfl (ix3 c p ⟨q.val - 258, by omega⟩)
      (fun b hb => by match b, hb with | ⟨0, _⟩, _ => rfl | ⟨1, _⟩, _ => rfl | ⟨2, _⟩, hb => exact absurd rfl hb)
      (by show q.val - 258 + 258 = q.val; omega)]
    rw [dif_neg (fun h => hq1 h.2.2)]
    rfl

/-- The filters with their taps laid row-major on one axis of 25, read at tap 5 i + j. -/
theorem flat_tap_apply (d : α) (A0 : SKern.Idx → α) (h : SKern.ShapeCasts SKernFlat) (b : Fin 2) (i j : Nat)
    (hi : i < 5) (hj : j < 5) (y x : Fin 256) :
    shapeCast SKernFlat A0 h (ix4 b ⟨5 * i + j, by omega⟩ y x) = kAt d A0 b i j y x := by
  unfold kAt
  rw [dif_pos ⟨hi, hj⟩]
  refine shapeCast_apply _ h _ (ix5 b ⟨i, hi⟩ ⟨j, hj⟩ y x) ?_
  rw [Shape.rowMajor_val_five, Shape.rowMajor_val_four]
  show ((((b.val * 5 + i) * 5 + j) * 256 + y.val) * 256 + x.val) = ((b.val * 25 + (5 * i + j)) * 256 + y.val) * 256 + x.val
  have e : (b.val * 5 + i) * 5 + j = b.val * 25 + (5 * i + j) := by omega
  rw [e]

/-- A 256 × 256 window of the bordered planes at offset (i, j), read at (c, y, x): the bordered planes at
    (c, y + i, x + j). -/
theorem slice_border_apply (i j : Nat) (Pd : TCols260.Idx → α) (h : TCols260.Slices ![0, i, j] TPlanes)
    (c : Fin 8) (y x : Fin 256) (hi : i + 256 ≤ 260) (hj : j + 256 ≤ 260) :
    extractStridedSlice TPlanes ![0, i, j] Pd h (ix3 c y x) = Pd (ix3 c ⟨y.val + i, by omega⟩ ⟨x.val + j, by omega⟩) := by
  refine extractStridedSlice_apply _ Pd h (ix3 c y x) _ (fun a => ?_)
  match a with
  | ⟨0, _⟩ => show c.val = 0 + c.val; omega
  | ⟨1, _⟩ => show y.val + i = i + y.val; omega
  | ⟨2, _⟩ => show x.val + j = j + x.val; omega

/-- Plane t of the 25 taps, cut out, squeezed to a matrix and back, and broadcast over the 8 planes, read at
    (c, y, x): tap t at (y, x). -/
theorem tap_planes_apply (t : Nat) (ht : t < 25) (Q : TTaps.Idx → α) (h1 : TTaps.Slices ![t, 0, 0] TTap1)
    (h2 : TTap1.ShapeCasts TTap2) (h3 : TTap2.ShapeCasts TTap1) (h4 : TTap1.Broadcasts TPlanes)
    (c : Fin 8) (y x : Fin 256) :
    broadcastTo TPlanes (shapeCast TTap1 (shapeCast TTap2 (extractStridedSlice TTap1 ![t, 0, 0] Q h1) h2) h3) h4 (ix3 c y x)
      = Q (ix3 ⟨t, ht⟩ y x) := by
  rw [shapeCast_shapeCast]
  refine (broadcastTo_apply _ h4 (ix3 c y x) (ix3 0 y x) (fun a => ?_)).trans ?_
  · match a with
    | ⟨0, _⟩ => rfl
    | ⟨1, _⟩ => rfl
    | ⟨2, _⟩ => rfl
  refine extractStridedSlice_apply _ Q h1 (ix3 0 y x) _ (fun a => ?_)
  match a with
  | ⟨0, _⟩ => show t = t + 0; omega
  | ⟨1, _⟩ => show y.val = 0 + y.val; omega
  | ⟨2, _⟩ => show x.val = 0 + x.val; omega

end Border

end Cert.Svc

end
-- ==== Proof.SvcKernel.lean ====
/-
  The kernel's result array is the filtered array.

  One grid point (bi, ci) of the 2 × 4 grid works on batch entry bi and channels 8 ci … 8 ci + 7.  Its body loads
  the block of 8 feature planes and the block of that entry's 25 filter taps, joins a border of two entries of the
  converted integer 0 around every plane, and for the 25 taps in row-major order multiplies the 256 × 256 window
  of the bordered planes at offset (i, j) by tap 5 i + j, adding the products onto the constant 0.0; it stores the
  sum as the output block.  Read at (c, y, x) the stored block is svcBlk of the two loaded blocks, addend by
  addend.  The feature block is the features array at (bi, 8 ci + c, ·, ·) and the tap block is the host's
  row-major reshape of the filters at (bi, 5 i + j, ·, ·), so the block is svc of the arguments read through the
  output block's rectangle; the eight rectangles tile the output array.
-/
import proofs.«174837_j47708496724546_1_alg».proof.Proof.KernelIdealValueBlocks
import proofs.«174837_j47708496724546_1_alg».proof.Proof.SvcBorder
import Idealize.ShloMosaic.Lib.ValueLayout
import Idealize.ShloMosaic.Lib.StableHlo.Run

set_option maxRecDepth 16384

noncomputable section

namespace Cert.KernelIdeal.Hand

open Cert.KernelIdeal Cert.KernelIdeal.Gen Cert.KernelIdeal.ValueBlocks Cert.Svc
open Idealize.ShloMosaic Idealize.ShloMosaic.ValueIdx Idealize.ShloMosaic.TcCoe Idealize.SL.Sem
open Idealize.ShloMosaic.Pipeline (Dat)

/-! ## The body's payload at an index -/

/-- The bordered planes the body builds from its feature block, read at (c, p, q). -/
theorem pay3_apply (P0 : Vec Ideal S1x8x256x256 .f32) (c : Fin 8) (p q : Fin 260) :
    k0_pay3 (F := Ideal) P0 (ix3 c p q) = padOf zPad (fun r s => P0 (ix4 0 c r s)) p.val q.val := by
  unfold k0_pay3
  refine (concat_border_apply _ _ _ _ _ _ c p q).trans ?_
  refine congrArg (fun f => padOf zPad f p.val q.val) (funext fun r => funext fun s => ?_)
  exact shapeCast_1abc_abc_apply P0 _ c r s

/-- One window of the bordered planes, read at (c, y, x). -/
theorem pad_blk_apply (i j : Nat) (P0 : Vec Ideal S1x8x256x256 .f32) (h : S8x260x260.Slices ![0, i, j] S8x256x256)
    (c : Fin 8) (y x : Fin 256) :
    extractStridedSlice S8x256x256 ![0, i, j] (k0_pay3 (F := Ideal) P0) h (ix3 c y x)
      = padOf zPad (fun r s => P0 (ix4 0 c r s)) (y.val + i) (x.val + j) := by
  have hi : i + 256 ≤ 260 := h.2 (1 : Fin 3)
  have hj : j + 256 ≤ 260 := h.2 (2 : Fin 3)
  exact (slice_border_apply i j _ h c y x hi hj).trans (pay3_apply P0 c _ _)

/-- One tap, broadcast over the 8 planes, read at (c, y, x): tap t = 5 i + j of the tap block at (y, x). -/
theorem tap_blk_apply (t i j : Nat) (ht : t = 5 * i + j) (hi : i < 5) (hj : j < 5) (P1 : Vec Ideal S1x25x256x256 .f32)
    (h1 : S25x256x256.Slices ![t, 0, 0] S1x256x256) (h2 : S1x256x256.ShapeCasts S256x256)
    (h3 : S256x256.ShapeCasts S1x256x256) (h4 : S1x256x256.Broadcasts S8x256x256) (c : Fin 8) (y x : Fin 256) :
    broadcastTo S8x256x256 (shapeCast S1x256x256 (shapeCast S256x256
        (extractStridedSlice S1x256x256 ![t, 0, 0] (k0_pay2 (F := Ideal) P1) h1) h2) h3) h4 (ix3 c y x)
      = tapAt zPad P1 i j y x := by
  subst ht
  unfold tapAt
  rw [dif_pos ⟨hi, hj⟩]
  refine (tap_planes_apply (5 * i + j) (by omega) _ h1 h2 h3 h4 c y x).trans ?_
  unfold k0_pay2
  exact shapeCast_1abc_abc_apply P1 _ _ y x

theorem hz4 : (![0, 0, 0, 0] : Fin 4 → Nat) = fun _ => 0 := funext fun a => by fin_cases a <;> rfl

/-- What the body stores, read at (u, c, y, x): the 25 products of the two loaded blocks added in order. -/
theorem out_blk (P0 : Vec Ideal S1x8x256x256 .f32) (P1 : Vec Ideal S1x25x256x256 .f32) (u : Fin 1) (c : Fin 8) (y x : Fin 256) :
    out0_2 (F := Ideal) P0 P1 (ix4 u c y x) = svcBlk zPad zAcc P0 P1 c y x := by
  unfold out0_2
  rw [View.canon_unit_zero hz4]
  simp only [View.ld_unit_zero (S := S1x8x256x256) hz4, View.ld_unit_zero (S := S1x25x256x256) hz4]
  unfold k0_pay1
  refine (shapeCast_abc_1abc_apply _ _ u c y x).trans ?_
  unfold k0_pay9 k0_pay6 k0_pay4 k0_pay5 k0_pay7 k0_pay8 svcBlk taps
  simp only [List.foldl_cons, List.foldl_nil, addf_apply, mulf_apply]
  iterate 25 (refine congrArg₂ (· + ·) ?_ (congrArg₂ (· * ·) ?_ ?_))
  all_goals first
    | exact pad_blk_apply _ _ _ _ _ _ _
    | exact tap_blk_apply _ _ _ (by decide) (by decide) (by decide) _ _ _ _ _ _ _ _
    | rfl

/-! ## The blocks, read off the arrays -/

variable (m : (ℓ : Loc nD τ sig) → Buf (Elt Ideal) ℓ) (ρ : Dev nD → PrngReg)

/-- The filters and the features as launched. -/
abbrev kernArr (c : Dev nD) : SKern.Idx → EReal := m ((c : Thread nD τ).loc main_arg0)
abbrev featArr (c : Dev nD) : SFeat.Idx → EReal := m ((c : Thread nD τ).loc main_arg1)
/-- The two input blocks at a grid point. -/
abbrev fblk (c : Dev nD) (t : Fin cfg0.N) : Vec Ideal S1x8x256x256 .f32 := iblk m c 0 t
abbrev tblk (c : Dev nD) (t : Fin cfg0.N) : Vec Ideal S1x25x256x256 .f32 := iblk m c 1 t

/-- The three index maps over the 8 grid points, decided: the feature block and the output block sit at the same
    (batch entry, channel block), the tap block at that batch entry, every other block index is 0. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) < 2 ∧ win0_2.index t (1 : Fin 4) < 4 :=
  (by decide +kernel : ∀ t : Fin grid0.N, _)

/-- Every (batch entry, channel block) is some point's. -/
theorem idx_onto : ∀ (q0 : Fin 2) (q1 : Fin 4), ∃ t : Fin cfg0.N, win0_2.index t = ![q0.val, q1.val, 0, 0] :=
  (by decide +kernel : ∀ (q0 : Fin 2) (q1 : Fin 4), ∃ t : Fin grid0.N, win0_2.index t = ![q0.val, q1.val, 0, 0])

/-- The feature block at a point is the features at that point's batch entry and its 8 channels. -/
theorem fblk_apply (c : Dev nD) (t : Fin cfg0.N) (u : Fin 1) (ch : Fin 8) (r s : Fin 256) (k : SFeat.Idx)
    (h0 : (k 0).val = win0_2.index t (0 : Fin 4)) (h1 : (k 1).val = 8 * win0_2.index t (1 : Fin 4) + ch.val)
    (h2 : (k 2).val = r.val) (h3 : (k 3).val = s.val) :
    fblk m c t (ix4 u ch r s) = featArr m c k := by
  obtain ⟨e00, e01, e02, e03, -⟩ := idx_facts t
  have hu : u.val = 0 := by omega
  show V m c main_arg1 (((cfg0.win 0).blk t).view.emb (ix4 u ch r s)) = m ((c : Thread nD τ).loc main_arg1) k
  rw [V_main_arg1]
  refine congrArg _ (funext fun a => Fin.ext ?_)
  match a with
  | ⟨0, _⟩ => show win0_0.index t (0 : Fin 4) * 1 + 1 * u.val = (k 0).val; omega
  | ⟨1, _⟩ => show win0_0.index t (1 : Fin 4) * 8 + 1 * ch.val = (k 1).val; omega
  | ⟨2, _⟩ => show win0_0.index t (2 : Fin 4) * 256 + 1 * r.val = (k 2).val; omega
  | ⟨3, _⟩ => show win0_0.index t (3 : Fin 4) * 256 + 1 * s.val = (k 3).val; omega

/-- What the region finds in the reshaped filters' array: the host's row-major reshape of the filters. -/
theorem V_flat (c : Dev nD) :
    (V m c main_v0 : S2x25x256x256.Idx → EReal) = shapeCast S2x25x256x256 (kernArr m c) shapeCasts_S2x5x5x256x256_S2x25x256x256 := by
  dsimp only [V, hostOps0]
  after_results
  rfl

/-- Tap (i, j) of the tap block at a point is tap (i, j) of the filters at that point's batch entry. -/
theorem tblk_tap (c : Dev nD) (t : Fin cfg0.N) (b : Fin 2) (hb : b.val = win0_2.index t (0 : Fin 4)) (i j : Nat)
    (hi : i < 5) (hj : j < 5) (y x : Fin 256) :
    tapAt zPad (tblk m c t) i j y x = kAt zPad (kernArr m c) b i j y x := by
  obtain ⟨-, -, -, -, e10, e11, e12, e13, -⟩ := idx_facts t
  unfold tapAt
  rw [dif_pos ⟨hi, hj⟩]
  refine Eq.trans ?_ ((congrFun (V_flat m c) (ix4 b ⟨5 * i + j, by omega⟩ y x)).trans
    (flat_tap_apply zPad (kernArr m c) shapeCasts_S2x5x5x256x256_S2x25x256x256 b i j hi hj y x))
  show V m c main_v0 (((cfg0.win 1).blk t).view.emb (ix4 0 ⟨5 * i + j, by omega⟩ y x)) = V m c main_v0 (ix4 b ⟨5 * i + j, by omega⟩ y x)
  refine congrArg _ (funext fun a => Fin.ext ?_)
  match a with
  | ⟨0, _⟩ => show win0_1.index t (0 : Fin 4) * 1 + 1 * 0 = b.val; omega
  | ⟨1, _⟩ => show win0_1.index t (1 : Fin 4) * 25 + 1 * (5 * i + j) = 5 * i + j; omega
  | ⟨2, _⟩ => show win0_1.index t (2 : Fin 4) * 256 + 1 * y.val = y.val; omega
  | ⟨3, _⟩ => show win0_1.index t (3 : Fin 4) * 256 + 1 * x.val = x.val; omega

/-- The sum over a point's blocks at (ch, y, x) is the filtered array at the index of the output array that lies
    under (ch, y, x) of the point's output block: the padded planes and the taps agree factor by factor. -/
theorem blk_eq_svc (c : Dev nD) (t : Fin cfg0.N) (ch : Fin 8) (y x : Fin 256) (k : SFeat.Idx)
    (h0 : (k 0).val = win0_2.index t (0 : Fin 4)) (h1 : (k 1).val = 8 * win0_2.index t (1 : Fin 4) + ch.val)
    (h2 : (k 2).val = y.val) (h3 : (k 3).val = x.val) :
    svcBlk zPad zAcc (fblk m c t) (tblk m c t) ch y x = svc zPad zAcc (kernArr m c) (featArr m c) k := by
  have hy : k 2 = y := Fin.ext h2
  have hx : k 3 = x := Fin.ext h3
  show _ = svcAt zPad zAcc (kernArr m c) (featArr m c) (k 0) (k 1) (k 2) (k 3)
  rw [hy, hx]
  unfold svcBlk svcAt
  refine foldl_taps_congr _ _ _ (fun p hp => ?_)
  obtain ⟨hi, hj⟩ := taps_lt p hp
  refine congrArg₂ (· * ·) ?_ (tblk_tap m c t (k 0) h0 p.1 p.2 hi hj y x)
  refine congrArg (fun f => padOf zPad f (y.val + p.1) (x.val + p.2)) (funext fun r => funext fun s => ?_)
  exact fblk_apply m c t 0 ch r s (ix4 (k 0) (k 1) r s) h0 h1 rfl rfl

/-! ## What each point writes back, and the array after the run -/

/-- The filtered array of the arguments as launched, as the contents of the result's buffer. -/
abbrev svcArr (c : Dev nD) : Buf (Elt Ideal) ((c : Thread nD τ).loc main_v1) :=
  svc zPad zAcc (kernArr m c) (featArr m c)

/-- What the body stores at any index of its output block. -/
theorem out_blk' (P0 : Vec Ideal S1x8x256x256 .f32) (P1 : Vec Ideal S1x25x256x256 .f32) (w : S1x8x256x256.Idx) :
    out0_2 (F := Ideal) P0 P1 w = svcBlk zPad zAcc P0 P1 (w 1) (w 2) (w 3) := by
  obtain ⟨u, ch, y, x, rfl⟩ : ∃ u ch y x, w = ix4 u ch y x := ⟨w 0, w 1, w 2, w 3, eq_ix4 w⟩
  exact out_blk P0 P1 u ch y x

attribute [local irreducible] svc in
/-- What grid point t writes back is block t of the filtered array: the stored block at an index is the sum over
    the point's blocks, which is the filtered array at the index of the output array under it. -/
theorem flushed_eq (c : Dev nD) (t : Fin cfg0.N) :
    (dats m 0 c).flushed 2 t = ((cfg0.win 2).blk t).view.read (Elt Ideal) (svcArr m c) := by
  obtain ⟨-, -, -, -, -, -, -, -, e22, e23, -⟩ := idx_facts t
  rw [flushed2]
  funext w
  have hw0 : (w 0).val < 1 := (w 0).isLt
  refine Eq.trans (out_blk' (fblk m c t) (tblk m c t) ((cfg0.win 2).xinj (grid0.coords t) w)) ?_
  refine Eq.trans (blk_eq_svc m c t ((cfg0.win 2).xinj (grid0.coords t) w 1) ((cfg0.win 2).xinj (grid0.coords t) w 2)
    ((cfg0.win 2).xinj (grid0.coords t) w 3) (((cfg0.win 2).blk t).view.emb w) ?_ ?_ ?_ ?_) ?_
  · show win0_2.index t (0 : Fin 4) * 1 + 1 * (w 0).val = win0_2.index t (0 : Fin 4); omega
  · show win0_2.index t (1 : Fin 4) * 8 + 1 * (w 1).val = 8 * win0_2.index t (1 : Fin 4) + (w 1).val; omega
  · show win0_2.index t (2 : Fin 4) * 256 + 1 * (w 2).val = (w 2).val; omega
  · show win0_2.index t (3 : Fin 4) * 256 + 1 * (w 3).val = (w 3).val; omega
  · rfl

/-- An index of the output array is in point t's block iff every coordinate is in the block's range. -/
theorem mem_blk (t : Fin cfg0.N) (i : S2x32x256x256.Idx) :
    i ∈ ((cfg0.win 2).blk t).view.set ↔ ∀ a : Fin 4, win0_2.index t a * S1x8x256x256.size a ≤ (i a).val
      ∧ (i a).val < win0_2.index t a * S1x8x256x256.size a + S1x8x256x256.size a := by
  show i ∈ ((View.whole main_v1).slice (win0_2.rect t)).set ↔ _
  rw [View.set_slice_whole, Rect.mem_set_unit]
  exact Iff.rfl

/-- The eight blocks cover the output array: index (b, ch, y, x) lies in the block of point (b, ch / 8). -/
theorem cover (i : S2x32x256x256.Idx) :
    ∃ t : Fin cfg0.N, (cfg0.win 2).flush t = true ∧ i ∈ ((cfg0.win 2).blk t).view.set := by
  have hi0 : (i 0).val < 2 := (i 0).isLt
  have hi1 : (i 1).val < 32 := (i 1).isLt
  have hi2 : (i 2).val < 256 := (i 2).isLt
  have hi3 : (i 3).val < 256 := (i 3).isLt
  obtain ⟨t, ht⟩ := idx_onto ⟨(i 0).val, hi0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- The result array after the run is the filtered array. -/
theorem final (c : Dev nD) : (dats m 0 c).arrAt 2 cfg0.N = svcArr m c :=
  (dats m 0 c).arrAt_eq_of_cover 2 (svcArr m c) (fun t _ => flushed_eq m c t) cover

/-- The run, read: the result array at the filtered array of the arguments, the arguments unchanged. -/
theorem run : θ_run defs (onTc (τ := τ) (main (F := Ideal))) ⟨m, fun _ => 0, ρ⟩ fun r => ∀ c : Dev nD,
      r.2.mem ((c : Thread nD τ).loc main_v1) = svcArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.lean ====
/-
  A spatially varying 5 × 5 filter: out[b, c, y, x] = Σ_{i, j} pad(features)[b, c, y + i, x + j] · kernels[b, i, j, y, x],
  with a zero border of two entries around every 256 × 256 feature plane.

  The kernel runs a 2 × 4 grid (batch entry × block of 8 channels); each point pads its 8 planes in the body and adds
  the 25 products, taps in row-major order, onto 0.0.  The reference pads on the host and adds the same 25 products
  in the same order onto 0.0 for all channels at once.  At the ideal instance both results are therefore ONE function
  svc of the two argument arrays (Proof/SvcSpec.lean), index by index and addend by addend; no law of arithmetic is
  used, so the precondition (finite inputs) is not opened.

    Proof/SvcReference.lean   the reference's result term is svc
    Proof/SvcKernel.lean      each grid point stores block t of svc; the 8 blocks tile the output; the run
    Proof/SvcBorder.lean      the body's border of four joins is the padded read; the taps on one axis of 25
    Proof/SvcSpec.lean        svc, and the host's layout operations read at an index

  The three frames: the kernel's two programs by their generated frame certificates, the reference by its run with the
  result dropped.  The idealization rewrote nothing, so preserves has nothing to state.
-/
import proofs.«174837_j47708496724546_1_alg».proof.Defs
import proofs.«174837_j47708496724546_1_alg».proof.Proof.Gen.Kernel
import proofs.«174837_j47708496724546_1_alg».proof.Proof.Gen.Kernel.Skeleton
import proofs.«174837_j47708496724546_1_alg».proof.Proof.Gen.Kernel.Launch
import proofs.«174837_j47708496724546_1_alg».proof.Proof.Gen.Kernel.Points
import proofs.«174837_j47708496724546_1_alg».proof.Proof.Gen.Kernel.Frame
import proofs.«174837_j47708496724546_1_alg».proof.Proof.Gen.KernelIdeal
import proofs.«174837_j47708496724546_1_alg».proof.Proof.Gen.KernelIdeal.Skeleton
import proofs.«174837_j47708496724546_1_alg».proof.Proof.Gen.KernelIdeal.Launch
import proofs.«174837_j47708496724546_1_alg».proof.Proof.Gen.KernelIdeal.Points
import proofs.«174837_j47708496724546_1_alg».proof.Proof.Gen.KernelIdeal.Frame
import proofs.«174837_j47708496724546_1_alg».proof.Proof.Gen.ReferenceIdeal
import proofs.«174837_j47708496724546_1_alg».proof.Proof.Gen.Pre_finite_inputs
import proofs.«174837_j47708496724546_1_alg».proof.Proof.SvcReference
import proofs.«174837_j47708496724546_1_alg».proof.Proof.SvcKernel
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the filtered array svc of their arguments in the result buffer; the arguments
    agree, so the results are equal index by index. -/
theorem algebraic : Cert.algebraic_KernelIdeal_ReferenceIdeal := by
  intro m ρ m' ρ' _ hagree
  refine ⟨fun c => Cert.KernelIdeal.Hand.svcArr m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
